-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x128 : Shape := ⟨2, ![500000, 128]⟩
abbrev S500000 : Shape := ⟨1, ![500000]⟩
abbrev S1000x128 : Shape := ⟨2, ![1000, 128]⟩
abbrev S1 : Shape := ⟨1, ![1]⟩
abbrev S_ : Shape := ⟨0, ![]⟩

class Facts : Prop where
  bcast_S_S500000x128 : S_.BroadcastsInDim S500000x128 (![] : Fin 0 → Fin S500000x128.rank)
  reducesTo_S500000x128_S_d0_1 : S500000x128.ReducesTo [0, 1] S_
  h_S_ : 0 < S_.numel
  bcast_S_S1000x128 : S_.BroadcastsInDim S1000x128 (![] : Fin 0 → Fin S1000x128.rank)
  reducesTo_S1000x128_S_d0_1 : S1000x128.ReducesTo [0, 1] S_
  bcast_S_S1 : S_.BroadcastsInDim S1 (![] : Fin 0 → Fin S1.rank)
  reducesTo_S1_S_d0 : S1.ReducesTo [0] S_

variable [Facts]

def fn {F : FTy → Type} [FloatOps F] (main_arg0 : FVec F S500000x128 .f32) (main_arg1 : IVec S500000 32) (main_arg2 : FVec F S1000x128 .f32) (main_arg3 : FVec F S1 .f32) : IVec S_ 1 :=
  let main_v0 : FVec F S500000x128 .f32 := Host.absf main_arg0
  let main_cst : FVec F S_ .f32 := constant S_ .f32 0x7F800000#32
  let main_v1 : FVec F S500000x128 .f32 := broadcastInDim S500000x128 ![] bcast_S_S500000x128 main_cst
  let main_v2 : IVec S500000x128 1 := cmpf .olt main_v0 main_v1
  let main_c : IVec S_ 1 := constantI S_ 1 1#1
  let main_v3 : IVec S_ 1 := (fun x v => Host.reduce IntOp.andi x v reducesTo_S500000x128_S_d0_1 h_S_) main_v2 main_c
  let main_v4 : FVec F S1000x128 .f32 := Host.absf main_arg2
  let main_cst_0 : FVec F S_ .f32 := constant S_ .f32 0x7F800000#32
  let main_v5 : FVec F S1000x128 .f32 := broadcastInDim S1000x128 ![] bcast_S_S1000x128 main_cst_0
  let main_v6 : IVec S1000x128 1 := cmpf .olt main_v4 main_v5
  let main_c_1 : IVec S_ 1 := constantI S_ 1 1#1
  let main_v7 : IVec S_ 1 := (fun x v => Host.reduce IntOp.andi x v reducesTo_S1000x128_S_d0_1 h_S_) main_v6 main_c_1
  let main_v8 : IVec S_ 1 := andi main_v3 main_v7
  let main_v9 : FVec F S1 .f32 := Host.absf main_arg3
  let main_cst_2 : FVec F S_ .f32 := constant S_ .f32 0x7F800000#32
  let main_v10 : FVec F S1 .f32 := broadcastInDim S1 ![] bcast_S_S1 main_cst_2
  let main_v11 : IVec S1 1 := cmpf .olt main_v9 main_v10
  let main_c_3 : IVec S_ 1 := constantI S_ 1 1#1
  let main_v12 : IVec S_ 1 := (fun x v => Host.reduce IntOp.andi x v reducesTo_S1_S_d0 h_S_) main_v11 main_c_3
  let main_v13 : IVec S_ 1 := andi main_v8 main_v12
  main_v13
-- ==== Kernel.lean ====
abbrev S500000x128 : Shape := ⟨2, ![500000, 128]⟩
abbrev S500000 : Shape := ⟨1, ![500000]⟩
abbrev S1000x128 : Shape := ⟨2, ![1000, 128]⟩
abbrev S1 : Shape := ⟨1, ![1]⟩
abbrev S100x1x5000 : Shape := ⟨3, ![100, 1, 5000]⟩
abbrev S2x1024x256 : Shape := ⟨3, ![2, 1024, 256]⟩
abbrev S5000x128 : Shape := ⟨2, ![5000, 128]⟩
abbrev S1x1x5000 : Shape := ⟨3, ![1, 1, 5000]⟩
abbrev S1x1024x256 : Shape := ⟨3, ![1, 1024, 256]⟩
abbrev S1024x256 : Shape := ⟨2, ![1024, 256]⟩
abbrev S1x5000 : Shape := ⟨2, ![1, 5000]⟩
abbrev S1024x1 : Shape := ⟨2, ![1024, 1]⟩
abbrev S1024x5000 : Shape := ⟨2, ![1024, 5000]⟩
abbrev S5000x256 : Shape := ⟨2, ![5000, 256]⟩
abbrev S1024x128 : Shape := ⟨2, ![1024, 128]⟩
abbrev S1024 : Shape := ⟨1, ![1024]⟩
abbrev S1000 : Shape := ⟨1, ![1000]⟩
abbrev S_ : Shape := ⟨0, ![]⟩
abbrev S1000x1 : Shape := ⟨2, ![1000, 1]⟩
abbrev S1x1 : Shape := ⟨2, ![1, 1]⟩

abbrev nBuf : Space → Nat
  | .hbm => 38
  | .vmem => 6
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S1000x128, .f32⟩
  | .hbm, ⟨3, _⟩ => ⟨S1, .f32⟩
  | .hbm, ⟨4, _⟩ => ⟨S100x1x5000, .i32⟩
  | .hbm, ⟨5, _⟩ => ⟨S2x1024x256, .f32⟩
  | .hbm, ⟨6, _⟩ => ⟨S1x1024x256, .f32⟩
  | .hbm, ⟨7, _⟩ => ⟨S1024x256, .f32⟩
  | .hbm, ⟨8, _⟩ => ⟨S1x1024x256, .f32⟩
  | .hbm, ⟨9, _⟩ => ⟨S1024x256, .f32⟩
  | .hbm, ⟨10, _⟩ => ⟨S1024x256, .f32⟩
  | .hbm, ⟨11, _⟩ => ⟨S1024x128, .f32⟩
  | .hbm, ⟨12, _⟩ => ⟨S1024x1, .f32⟩
  | .hbm, ⟨13, _⟩ => ⟨S1024, .f32⟩
  | .hbm, ⟨14, _⟩ => ⟨S1000x128, .f32⟩
  | .hbm, ⟨15, _⟩ => ⟨S1000, .f32⟩
  | .hbm, ⟨16, _⟩ => ⟨S_, .f32⟩
  | .hbm, ⟨17, _⟩ => ⟨S1000, .f32⟩
  | .hbm, ⟨18, _⟩ => ⟨S1000, .i1⟩
  | .hbm, ⟨19, _⟩ => ⟨S_, .f32⟩
  | .hbm, ⟨20, _⟩ => ⟨S1000, .f32⟩
  | .hbm, ⟨21, _⟩ => ⟨S1000, .f32⟩
  | .hbm, ⟨22, _⟩ => ⟨S1000x1, .f32⟩
  | .hbm, ⟨23, _⟩ => ⟨S1000x128, .f32⟩
  | .hbm, ⟨24, _⟩ => ⟨S1000x128, .f32⟩
  | .hbm, ⟨25, _⟩ => ⟨S1x1, .f32⟩
  | .hbm, ⟨26, _⟩ => ⟨S1000x128, .f32⟩
  | .hbm, ⟨27, _⟩ => ⟨S1000x128, .f32⟩
  | .hbm, ⟨28, _⟩ => ⟨S1000x128, .f32⟩
  | .hbm, ⟨29, _⟩ => ⟨S_, .f32⟩
  | .hbm, ⟨30, _⟩ => ⟨S1, .f32⟩
  | .hbm, ⟨31, _⟩ => ⟨S1, .f32⟩
  | .hbm, ⟨32, _⟩ => ⟨S1x1, .f32⟩
  | .hbm, ⟨33, _⟩ => ⟨S1000x128, .f32⟩
  | .hbm, ⟨34, _⟩ => ⟨S1000x128, .f32⟩
  | .hbm, ⟨35, _⟩ => ⟨S1000x1, .i1⟩
  | .hbm, ⟨36, _⟩ => ⟨S1000x128, .i1⟩
  | .hbm, ⟨37, _⟩ => ⟨S1000x128, .f32⟩
  | .local _ .vmem, ⟨0, _⟩ => ⟨S5000x128, .f32⟩
  | .local _ .vmem, ⟨1, _⟩ => ⟨S5000x128, .f32⟩
  | .local _ .vmem, ⟨2, _⟩ => ⟨S1x1x5000, .i32⟩
  | .local _ .vmem, ⟨3, _⟩ => ⟨S1x1x5000, .i32⟩
  | .local _ .vmem, ⟨4, _⟩ => ⟨S1x1024x256, .f32⟩
  | .local _ .vmem, ⟨5, _⟩ => ⟨S1x1024x256, .f32⟩
  | _, _ => ⟨S500000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩
abbrev main_cst_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_cst_1 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_call0_v0 : Ref sig .tc := ⟨.hbm, 36, rfl⟩
abbrev main_v29 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 50], ![false, false]⟩

def cc0_transform_0 (i : grid0.Coords) : Fin 2 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 3 → Nat :=
  let arg0 : BitVec 32 := BitVec.ofNat 32 (i 0).val
  let arg1 : BitVec 32 := BitVec.ofNat 32 (i 1).val
  let c50_i32 : BitVec 32 := 50#32
  let v0 : BitVec 32 := Scalar.muli arg0 c50_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x5000 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S500000_S100x1x5000 : S500000.ShapeCasts S100x1x5000
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S1x1x5000_S1x1x5000_0_0_0 : ∀ a, (![0, 0, 0] : Fin 3 → Nat) a + S1x1x5000.size a ≤ S1x1x5000.size a
  h_S1x1x5000 : 0 < S1x1x5000.numel
  shapeCasts_S1x1x5000_S1x5000 : S1x1x5000.ShapeCasts S1x5000
  iota_S1024x1_d0_w32 : S1024x1.Iotas .tc 32 [0]
  broadcasts_S1024x1_S1024x5000 : S1024x1.Broadcasts S1024x5000
  broadcasts_S1x5000_S1024x5000 : S1x5000.Broadcasts S1024x5000
  natLt_1_32 : 1 < 32
  concatenates_S5000x128_S5000x128_S5000x256_d1 : Shape.Concatenates [S5000x128, S5000x128] S5000x256 1
  slices_S2x1024x256_S1x1024x256_0_0_0 : S2x1024x256.Slices ![0, 0, 0] S1x1024x256
  slices_S2x1024x256_S1x1024x256_1_0_0 : S2x1024x256.Slices ![1, 0, 0] S1x1024x256
  slices_S1024x256_S1024x128_0_0 : S1024x256.Slices ![0, 0] S1024x128
  slices_S1024x256_S1024x1_0_128 : S1024x256.Slices ![0, 128] S1024x1
  shapeCasts_S1024x1_S1024 : S1024x1.ShapeCasts S1024
  slices_S1024x128_S1000x128_0_0 : S1024x128.Slices ![0, 0] S1000x128
  slices_S1024_S1000_0 : S1024.Slices ![0] S1000
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S1_S1x1_1 : S1.BroadcastsInDim S1x1 (![1] : Fin 1 → Fin S1x1.rank)
  bcast_S1x1_S1000x128_0_1 : S1x1.BroadcastsInDim S1000x128 (![0, 1] : Fin 2 → Fin S1000x128.rank)
  bcast_S_S1 : S_.BroadcastsInDim S1 (![] : Fin 0 → Fin S1.rank)
  dot_S1024x5000_S5000x256_S1024x256_1_0_0_1_n_n_wf : DotDims.WF S1024x5000 S5000x256 S1024x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S500000x128.size a
  hwx0_0 : ∀ i : grid0.Coords, EltTy.bits .f32 = 32 ∨ (Rect.block (s := S500000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x5000.size a ≤ S100x1x5000.size a
  hwx0_1 : ∀ i : grid0.Coords, EltTy.bits .i32 = 32 ∨ (Rect.block (s := S100x1x5000) S1x1x5000.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S2x1024x256.size a
  hwx0_2 : ∀ i : grid0.Coords, EltTy.bits .f32 = 32 ∨ (Rect.block (s := S2x1024x256) S1x1024x256.size (cc0_transform_2 i) (hinb0_2 i)).WholeWords (EltTy.packing .f32)

variable [Facts₀]

def dot_S1024x5000_S5000x256_S1024x256_1_0_0_1_n_n : DotDims S1024x5000 S5000x256 S1024x256 where
  lhsContracting := [1]
  rhsContracting := [0]
  lhsNonContracting := [0]
  rhsNonContracting := [1]
  lhsBatch := []
  rhsBatch := []
  wf := dot_S1024x5000_S5000x256_S1024x256_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x5000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S500000x128 : Shape := ⟨2, ![500000, 128]⟩
abbrev S500000 : Shape := ⟨1, ![500000]⟩
abbrev S1000x128 : Shape := ⟨2, ![1000, 128]⟩
abbrev S1 : Shape := ⟨1, ![1]⟩
abbrev S_ : Shape := ⟨0, ![]⟩
abbrev S500000x1 : Shape := ⟨2, ![500000, 1]⟩
abbrev S1000 : Shape := ⟨1, ![1000]⟩
abbrev S1000x1 : Shape := ⟨2, ![1000, 1]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S500000x128, .f32⟩
  | .hbm, ⟨1, _⟩ => ⟨S500000, .i32⟩
  | .hbm, ⟨2, _⟩ => ⟨S1000x128, .f32⟩
  | .hbm, ⟨3, _⟩ => ⟨S1, .f32⟩
  | .hbm, ⟨4, _⟩ => ⟨S_, .f32⟩
  | .hbm, ⟨5, _⟩ => ⟨S1000x128, .f32⟩
  | .hbm, ⟨6, _⟩ => ⟨S500000x1, .i32⟩
  | .hbm, ⟨7, _⟩ => ⟨S1000x128, .f32⟩
  | .hbm, ⟨8, _⟩ => ⟨S_, .f32⟩
  | .hbm, ⟨9, _⟩ => ⟨S500000, .f32⟩
  | .hbm, ⟨10, _⟩ => ⟨S_, .f32⟩
  | .hbm, ⟨11, _⟩ => ⟨S1000, .f32⟩
  | .hbm, ⟨12, _⟩ => ⟨S500000x1, .i32⟩
  | .hbm, ⟨13, _⟩ => ⟨S1000, .f32⟩
  | .hbm, ⟨14, _⟩ => ⟨S_, .f32⟩
  | .hbm, ⟨15, _⟩ => ⟨S1000, .f32⟩
  | .hbm, ⟨16, _⟩ => ⟨S1000, .i1⟩
  | .hbm, ⟨17, _⟩ => ⟨S_, .f32⟩
  | .hbm, ⟨18, _⟩ => ⟨S1000, .f32⟩
  | .hbm, ⟨19, _⟩ => ⟨S1000, .f32⟩
  | .hbm, ⟨20, _⟩ => ⟨S1000x1, .f32⟩
  | .hbm, ⟨21, _⟩ => ⟨S1000x128, .f32⟩
  | .hbm, ⟨22, _⟩ => ⟨S1000x128, .f32⟩
  | .hbm, ⟨23, _⟩ => ⟨S1x1, .f32⟩
  | .hbm, ⟨24, _⟩ => ⟨S1000x128, .f32⟩
  | .hbm, ⟨25, _⟩ => ⟨S1000x128, .f32⟩
  | .hbm, ⟨26, _⟩ => ⟨S1000x128, .f32⟩
  | .hbm, ⟨27, _⟩ => ⟨S_, .f32⟩
  | .hbm, ⟨28, _⟩ => ⟨S1, .f32⟩
  | .hbm, ⟨29, _⟩ => ⟨S1, .f32⟩
  | .hbm, ⟨30, _⟩ => ⟨S1x1, .f32⟩
  | .hbm, ⟨31, _⟩ => ⟨S1000x128, .f32⟩
  | .hbm, ⟨32, _⟩ => ⟨S1000x128, .f32⟩
  | .hbm, ⟨33, _⟩ => ⟨S1000x1, .i1⟩
  | .hbm, ⟨34, _⟩ => ⟨S1000x128, .i1⟩
  | .hbm, ⟨35, _⟩ => ⟨S1000x128, .f32⟩
  | _, _ => ⟨S500000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_call0_v0 : Ref sig .tc := ⟨.hbm, 34, rfl⟩
abbrev main_v24 : Ref sig .tc := ⟨.hbm, 35, rfl⟩

abbrev nD : Nat := 1
abbrev τ : Topo := Topo.v7x

variable {F : FTy → Type} [FloatOps F]

class Facts₀ : Prop where
  bcast_S_S1000x128 : S_.BroadcastsInDim S1000x128 (![] : Fin 0 → Fin S1000x128.rank)
  bcast_S500000_S500000x1_0 : S500000.BroadcastsInDim S500000x1 (![0] : Fin 1 → Fin S500000x1.rank)
  bcast_S_S500000 : S_.BroadcastsInDim S500000 (![] : Fin 0 → Fin S500000.rank)
  bcast_S_S1000 : S_.BroadcastsInDim S1000 (![] : Fin 0 → Fin S1000.rank)
  bcast_S1000_S1000x1_0 : S1000.BroadcastsInDim S1000x1 (![0] : Fin 1 → Fin S1000x1.rank)
  bcast_S1000x1_S1000x128_0_1 : S1000x1.BroadcastsInDim S1000x128 (![0, 1] : Fin 2 → Fin S1000x128.rank)
  bcast_S1_S1x1_1 : S1.BroadcastsInDim S1x1 (![1] : Fin 1 → Fin S1x1.rank)
  bcast_S1x1_S1000x128_0_1 : S1x1.BroadcastsInDim S1000x128 (![0, 1] : Fin 2 → Fin S1000x128.rank)
  bcast_S_S1 : S_.BroadcastsInDim S1 (![] : Fin 0 → Fin S1.rank)
  scatter_S1000x128_S500000x1_S500000x128_1_0_0_1_wf : ScatterDims.WF S1000x128 S500000x1 S500000x128 [1] [0] [0] 1
  scatter_S1000_S500000x1_S500000_n_0_0_1_wf : ScatterDims.WF S1000 S500000x1 S500000 [] [0] [0] 1

variable [Facts₀]

def scatter_S1000x128_S500000x1_S500000x128_1_0_0_1 : ScatterDims S1000x128 S500000x1 S500000x128 where
  updateWindowDims := [1]
  insertedWindowDims := [0]
  scatterDimsToOperandDims := [0]
  indexVectorDim := 1
  wf := scatter_S1000x128_S500000x1_S500000x128_1_0_0_1_wf
def scatter_S1000_S500000x1_S500000_n_0_0_1 : ScatterDims S1000 S500000x1 S500000 where
  updateWindowDims := []
  insertedWindowDims := [0]
  scatterDimsToOperandDims := [0]
  indexVectorDim := 1
  wf := scatter_S1000_S500000x1_S500000_n_0_0_1_wf

class Facts : Prop extends Facts₀ where

variable [Facts]
-- ==== Proof.Pieces.lean ====
/-
  What one step of the body leaves in the output block, in each of its two cases.

  The body keeps a 1024 × 256 accumulator block. At the first of each core's 50 steps it first stores the zero block, then
  reads it back; at every step it stores ONE block over the whole accumulator: the accumulating payload of the step's row
  tile, the step's label tile and what the accumulator held. So after a step the accumulator holds that payload: over the
  zero block at a reset step, over the previous contents otherwise.
-/
import proofs.«416729_j1881195675951_3_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Acc

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A step that is not a reset: the one store covers the accumulator with the payload over what it held. -/
theorem out_step (c : Dev nD) (i : grid0.Coords) (a2 : Memref sig .tc .vmem S5000x128 .f32) (h2 : a2.IsWhole)
    (a3 : Memref sig .tc .vmem S1x1x5000 .i32) (h3 : a3.IsWhole) (a4 : Memref sig .tc .vmem S1x1024x256 .f32) (h4 : a4.IsWhole)
    (hc : ¬cond0_0 i) (x0 : Vec F S5000x128 .f32) (x1 : Vec F S1x1x5000 .i32) (xo : Vec F S1x1024x256 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S5000x128) hz2,
    View.ld_unit_zero (S := S1x1x5000) hz3, View.ld_unit_zero (S := S1x1024x256) hz3]

/-- A reset step: the zero block is stored and read back, and the covering store is the payload over it. -/
theorem out_reset (c : Dev nD) (i : grid0.Coords) (a2 : Memref sig .tc .vmem S5000x128 .f32) (h2 : a2.IsWhole)
    (a3 : Memref sig .tc .vmem S1x1x5000 .i32) (h3 : a3.IsWhole) (a4 : Memref sig .tc .vmem S1x1024x256 .f32) (h4 : a4.IsWhole)
    (hc : cond0_0 i) (x0 : Vec F S5000x128 .f32) (x1 : Vec F S1x1x5000 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x1024x256) hz3, View.readCov_unit_zero (S := S1x1024x256) _ hz3]
  simp only [View.readAt_eq_ld, h2.read_unread, h3.read_unread, View.ld_unit_zero (S := S5000x128) hz2,
    View.ld_unit_zero (S := S1x1x5000) hz3, View.ld_unit_zero (S := S1x1024x256) hz3]

end Cert.KernelIdeal.Acc

end
-- ==== Proof.Final.lean ====
/-
  The result array of the accumulating call.

  The call's output is 2 × 1024 × 256: one 1024 × 256 block per core. The accumulator is written back twice, after the
  last step of each core (steps 49 and 99), to block 0 and block 1. So the array ends with core `q`'s block at what the
  accumulator held after step `50 q + 49`, and the two write-backs cover the whole array.
-/
import proofs.«416729_j1881195675951_3_alg».proof.Proof.Pieces
import Idealize.ShloMosaic.Lib.Pipeline.Value
import Idealize.ShloMosaic.Lib.ValueIdx

noncomputable section

open Idealize.ShloMosaic Idealize.ShloMosaic.TcCoe Idealize.SL.Sem Idealize.ShloMosaic.ValueIdx
open Idealize.ShloMosaic.Pipeline (Dat)

namespace Cert.KernelIdeal.Acc

open Cert.KernelIdeal Cert.KernelIdeal.Gen

variable {F : FTy → Type} [FloatOps F]
variable (m : (ℓ : Loc nD τ sig) → Buf (Elt F) ℓ)

/-- Core `q`'s last step is a step of the run. -/
theorem last_lt (q : Fin 2) : q.val * 50 + 49 < cfg0.N := by
  rw [show cfg0.N = 100 from N_0]; have := q.isLt; omega

/-- The result array: block `q` is the accumulator after core `q`'s last step. -/
def outArr (c : Dev nD) : Buf (Elt F) ((c : Thread nD τ).loc main_v1) :=
  fun j : S2x1024x256.Idx =>
    outsAt0 m c ((j 0 : Fin 2).val * 50 + 49) (last_lt (j 0)) (ix3 (0 : Fin 1) (j 1 : Fin 1024) (j 2 : Fin 256))

/-- The output's block index at step `t` is `(t / 50, 0, 0)`: decided over the 100 steps. -/
theorem out_index : ∀ t : Fin cfg0.N, win0_2.index t (0 : Fin 3) = t.val / 50 ∧ win0_2.index t (1 : Fin 3) = 0
    ∧ win0_2.index t (2 : Fin 3) = 0 :=
  (by decide +kernel : ∀ t : Fin grid0.N, _)

/-- What a write-back writes is its block of the result array. -/
theorem flushed_out (c : Dev nD) (t : Fin cfg0.N) (hf : (cfg0.win 2).flush t = true) :
    (dats m 0 c).flushed 2 t = ((cfg0.win 2).blk t).view.read (Elt F) (outArr m c) := by
  have h49 : t.val % 50 = 49 := (flush0_2 t).mp hf
  have hN : t.val < 100 := lt_of_lt_of_eq t.isLt (show cfg0.N = 100 from N_0)
  obtain ⟨e0, e1, e2⟩ := out_index t
  show (cfg0.win 2).cut (grid0.coords t) ((dats m 0 c).after 2 t) = _
  rw [after0_2]
  funext y
  have y0 : (y 0).val < 1 := (y 0).isLt
  have y1 : (y 1).val < 1024 := (y 1).isLt
  have y2 : (y 2).val < 256 := (y 2).isLt
  have key : ∀ (n : ℕ) (hn : n < cfg0.N) (j : S1x1024x256.Idx), n = t.val → j = (cfg0.win 2).xinj (grid0.coords t) y →
      outsAt0 m c t.val t.isLt ((cfg0.win 2).xinj (grid0.coords t) y) = outsAt0 m c n hn j := by
    intro n hn j en ej; subst en; subst ej; rfl
  refine key _ _ _ ?_ ?_
  · show (win0_2.index t (0 : Fin 3) * 1 + 1 * (y 0).val) * 50 + 49 = t.val
    omega
  · funext a; apply Fin.ext
    match a with
    | ⟨0, _⟩ => show (0 : ℕ) = (y 0).val; omega
    | ⟨1, _⟩ => show win0_2.index t (1 : Fin 3) * 1024 + 1 * (y 1).val = (y 1).val; omega
    | ⟨2, _⟩ => show win0_2.index t (2 : Fin 3) * 256 + 1 * (y 2).val = (y 2).val; omega

/-- An index of the result array is in step `t`'s block iff each coordinate is in the block's range on its axis. -/
theorem mem_out_blk (t : Fin cfg0.N) (i : S2x1024x256.Idx) :
    i ∈ ((cfg0.win 2).blk t).view.set ↔ ∀ a : Fin 3, win0_2.index t a * S1x1024x256.size a ≤ (i a).val
      ∧ (i a).val < win0_2.index t a * S1x1024x256.size a + S1x1024x256.size a := by
  show i ∈ ((View.whole main_v1).slice (win0_2.rect t)).set ↔ _
  rw [View.set_slice_whole, Rect.mem_set_unit]
  exact Iff.rfl

/-- The last step of core `q`, as a step of the run. -/
def lastStep (q : Fin 2) : Fin cfg0.N := ⟨q.val * 50 + 49, last_lt q⟩

/-- The two write-backs cover the array: row `q` of it is in the block written after core `q`'s last step. -/
theorem out_cover (i : S2x1024x256.Idx) :
    ∃ t : Fin cfg0.N, (cfg0.win 2).flush t = true ∧ i ∈ ((cfg0.win 2).blk t).view.set := by
  have i0 : (i 0).val < 2 := (i 0).isLt
  have i1 : (i 1).val < 1024 := (i 1).isLt
  have i2 : (i 2).val < 256 := (i 2).isLt
  refine ⟨lastStep (i 0), (flush0_2 _).mpr (by show ((i 0 : Fin 2).val * 50 + 49) % 50 = 49; omega), ?_⟩
  obtain ⟨e0, e1, e2⟩ := out_index (lastStep (i 0))
  have ev : (lastStep (i 0)).val = (i 0 : Fin 2).val * 50 + 49 := rfl
  rw [mem_out_blk]
  intro a
  match a with
  | ⟨0, _⟩ =>
    show win0_2.index (lastStep (i 0)) (0 : Fin 3) * 1 ≤ (i 0).val ∧ (i 0).val < win0_2.index (lastStep (i 0)) (0 : Fin 3) * 1 + 1
    omega
  | ⟨1, _⟩ =>
    show win0_2.index (lastStep (i 0)) (1 : Fin 3) * 1024 ≤ (i 1).val ∧ (i 1).val < win0_2.index (lastStep (i 0)) (1 : Fin 3) * 1024 + 1024
    omega
  | ⟨2, _⟩ =>
    show win0_2.index (lastStep (i 0)) (2 : Fin 3) * 256 ≤ (i 2).val ∧ (i 2).val < win0_2.index (lastStep (i 0)) (2 : Fin 3) * 256 + 256
    omega

/-- The result array after the run. -/
theorem final_out (c : Dev nD) : (dats m 0 c).arrAt 2 cfg0.N = outArr m c :=
  (dats m 0 c).arrAt_eq_of_cover 2 (outArr m c) (flushed_out m c) out_cover

end Cert.KernelIdeal.Acc

end
-- ==== Proof.Update.lean ====
/-
  The running-centers update, as one function of the per-class sums and counts.

  Given the per-class sums (1000 × 128) and counts (1000), the centers and the counter: a class is present when its
  count is positive; its mean is its sum divided by the larger of its count and one; the updated center is the mean plus
  the center times the counter, divided by the counter plus one; an absent class keeps its center. Both programs end
  with exactly these operations, so they agree as soon as their sums and counts do.
-/
import Idealize.ShloMosaic.PureOps

noncomputable section

open Idealize.ShloMosaic

namespace Cert.SegmentSum

variable {F : FTy → Type} [FloatOps F]

abbrev Scalar0 : Shape := ⟨0, ![]⟩
abbrev One1 : Shape := ⟨1, ![1]⟩
abbrev One2 : Shape := ⟨2, ![1, 1]⟩
abbrev ClassVec : Shape := ⟨1, ![1000]⟩
abbrev ClassCol : Shape := ⟨2, ![1000, 1]⟩
abbrev ClassRows : Shape := ⟨2, ![1000, 128]⟩

/-- The update of the centers from the per-class sums and counts. -/
def centersUpdate
    (b0 : Scalar0.BroadcastsInDim ClassVec (![] : Fin 0 → Fin ClassVec.rank))
    (b1 : ClassVec.BroadcastsInDim ClassCol (![0] : Fin 1 → Fin ClassCol.rank))
    (b2 : ClassCol.BroadcastsInDim ClassRows (![0, 1] : Fin 2 → Fin ClassRows.rank))
    (b3 : One1.BroadcastsInDim One2 (![1] : Fin 1 → Fin One2.rank))
    (b4 : One2.BroadcastsInDim ClassRows (![0, 1] : Fin 2 → Fin ClassRows.rank))
    (b5 : Scalar0.BroadcastsInDim One1 (![] : Fin 0 → Fin One1.rank))
    (sums : FVec F ClassRows .f32) (counts : FVec F ClassVec .f32) (centers : FVec F ClassRows .f32)
    (counter : FVec F One1 .f32) : FVec F ClassRows .f32 :=
  select
    (broadcastInDim ClassRows ![0, 1] b2 (broadcastInDim ClassCol ![0] b1
      (cmpf (F := F) .ogt counts (broadcastInDim ClassVec ![] b0 (constant Scalar0 .f32 0x00000000#32)))))
    (Host.divf
      (addf
        (Host.divf sums (broadcastInDim ClassRows ![0, 1] b2 (broadcastInDim ClassCol ![0] b1
          (maximumf counts (broadcastInDim ClassVec ![] b0 (constant Scalar0 .f32 0x3F800000#32))))))
        (mulf centers (broadcastInDim ClassRows ![0, 1] b4 (broadcastInDim One2 ![1] b3 counter))))
      (broadcastInDim ClassRows ![0, 1] b4 (broadcastInDim One2 ![1] b3
        (addf counter (broadcastInDim One1 ![] b5 (constant Scalar0 .f32 0x3F800000#32))))))
    centers

end Cert.SegmentSum

end
-- ==== Proof.KTail.lean ====
/-
  After the accumulating call: the kernel's per-class sums and counts, and its result.

  The host adds the two cores' 1024 × 256 blocks, takes columns 0 … 127 as the sums and column 128 as the counts, keeps
  the first 1000 class rows of each, and applies the centers update. So the program's result is the centers update of
  those sums and counts, and the four argument arrays end as they were.
-/
import proofs.«416729_j1881195675951_3_alg».proof.Proof.Final
import proofs.«416729_j1881195675951_3_alg».proof.Proof.Update
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.Acc

open Cert.KernelIdeal Cert.KernelIdeal.Gen Cert.SegmentSum

variable {F : FTy → Type} [FloatOps F]

/-- The two cores' blocks added. -/
def added (o : FVec F S2x1024x256 .f32) : FVec F S1024x256 .f32 :=
  addf
    (shapeCast S1024x256 (extractStridedSlice S1x1024x256 ![0, 0, 0] o slices_S2x1024x256_S1x1024x256_0_0_0)
      shapeCasts_S1x1024x256_S1024x256)
    (shapeCast S1024x256 (extractStridedSlice S1x1024x256 ![1, 0, 0] o slices_S2x1024x256_S1x1024x256_1_0_0)
      shapeCasts_S1x1024x256_S1024x256)

/-- The kernel's per-class sums: columns 0 … 127, class rows 0 … 999 of the added blocks. -/
def kSums (o : FVec F S2x1024x256 .f32) : FVec F S1000x128 .f32 :=
  extractStridedSlice S1000x128 ![0, 0]
    (extractStridedSlice S1024x128 ![0, 0] (added o) slices_S1024x256_S1024x128_0_0) slices_S1024x128_S1000x128_0_0

/-- The kernel's per-class counts: column 128, class rows 0 … 999 of the added blocks. -/
def kCounts (o : FVec F S2x1024x256 .f32) : FVec F S1000 .f32 :=
  extractStridedSlice S1000 ![0]
    (shapeCast S1024 (extractStridedSlice S1024x1 ![0, 128] (added o) slices_S1024x256_S1024x1_0_128)
      shapeCasts_S1024x1_S1024) slices_S1024_S1000_0

variable (m : (ℓ : Loc nD τ sig) → Buf (Elt F) ℓ) (ρ : Dev nD → PrngReg)

/-- The program's result as a function of the result array of the call and of the centers and the counter. -/
def result (c : Dev nD) : Buf (Elt F) ((c.tc : Thread nD τ).loc main_v29) :=
  centersUpdate bcast_S_S1000 bcast_S1000_S1000x1_0 bcast_S1000x1_S1000x128_0_1 bcast_S1_S1x1_1 bcast_S1x1_S1000x128_0_1
    bcast_S_S1 (kSums (outArr m c)) (kCounts (outArr m c)) (m ((c.tc : Thread nD τ).loc main_arg2))
    (m ((c.tc : Thread nD τ).loc main_arg3))

set_option maxHeartbeats 2000000 in
/-- What the lines after the call leave in the result buffer. -/
theorem tail_result (c : Dev nD) :
    Pipeline.afterTail₀ cfgs (dats m) 0 (V0 m) [hostOps1, hostOps1_1] c main_v29 = result m c := by
  have hv1 : Pipeline.withArrays (cfgs 0).spec c (V0 m c) (fun w => (dats m 0 c).arrAt w (cfgs 0).N)
      (Proc.devRef .tc main_v1) = outArr m c :=
    (Pipeline.withArrays_arr spec0 launch0.win.arr_inj c _ _ 2).trans (final_out m c)
  have ha2 : Pipeline.withArrays (cfgs 0).spec c (V0 m c) (fun w => (dats m 0 c).arrAt w (cfgs 0).N)
      (Proc.devRef .tc main_arg2) = m ((c.tc : Thread nD τ).loc main_arg2) :=
    (Pipeline.withArrays_of_ne _ c (V0 m c) _ main_arg2
      (by exact (by decide : ∀ w, Pipeline.arrRef spec0 w ≠ main_arg2))).trans (V_main_arg2 m c)
  have ha3 : Pipeline.withArrays (cfgs 0).spec c (V0 m c) (fun w => (dats m 0 c).arrAt w (cfgs 0).N)
      (Proc.devRef .tc main_arg3) = m ((c.tc : Thread nD τ).loc main_arg3) :=
    (Pipeline.withArrays_of_ne _ c (V0 m c) _ main_arg3
      (by exact (by decide : ∀ w, Pipeline.arrRef spec0 w ≠ main_arg3))).trans (V_main_arg3 m c)
  unfold Pipeline.afterTail₀
  simp only [hostOps1, hostOps1_1, List.flatten_cons, List.flatten_nil, List.append_nil, List.cons_append, List.nil_append]
  after_results_simp
  simp only [TRef.ofBuf, TRef.toBuf, cast_eq]
  rw [hv1, ha2, ha3]
  rfl

/-- The run, read: the result buffer at `result`, the four arguments unchanged. -/
theorem run_value : θ_run defs (onTc (τ := τ) (main (F := F))) ⟨m, fun _ => 0, ρ⟩ (fun r => ∀ c : Dev nD,
      r.2.mem ((c.tc : Thread nD τ).loc main_v29) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v29 (Pipeline.mem_restRefs_of main_v29 (by decide) (by decide))).trans (tail_result m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c))⟩)
    (run_main m ρ)

end Cert.KernelIdeal.Acc

end
-- ==== Proof.ScatterRows.lean ====
/-
  A scatter-add of rows by label, read at one entry, over the extended reals.

  The host's accumulating scatter adds update row `n` into result row `label n`, the label read as a SIGNED word and not
  clamped; an update whose label is negative or not below the number of result rows lands nowhere. So entry `(c, d)` of
  the result is the operand's entry plus the sum, over all update rows `n`, of entry `(n, d)` where `label n = c`, and of
  zero elsewhere. The same for a scatter of scalars into a vector (the counts).
-/
import Idealize.ShloMosaic.PureOps.Ideal
import Idealize.ShloMosaic.Lib.ValueIdx

noncomputable section

open scoped BigOperators
open Idealize.ShloMosaic Idealize.ShloMosaic.ValueIdx

namespace Cert.SegmentSum

abbrev Rows : Shape := ⟨2, ![500000, 128]⟩
abbrev Labels : Shape := ⟨2, ![500000, 1]⟩
abbrev Ones : Shape := ⟨1, ![500000]⟩
abbrev Sums : Shape := ⟨2, ![1000, 128]⟩
abbrev Counts : Shape := ⟨1, ![1000]⟩

/-! ## Where an update lands -/

/-- An update index lands at operand index `i` exactly when, on every operand axis, the window's start plus the window
    coordinate is `i`'s coordinate; the test "inside the operand" is then automatic, a coordinate being in range. -/
private theorem resultIdx?_eq_some_iff {s si u : Shape} (D : ScatterDims s si u) {w : Nat} (j : u.Idx) (idx : IVec si w)
    (i : s.Idx) :
    D.resultIdx? j idx = some i ↔ ∀ a, D.start j idx a + (D.window j a : Int) = ((i a).val : Int) := by
  unfold ScatterDims.resultIdx?
  split
  · rename_i hh
    constructor
    · intro e a
      have e1 := congrArg Fin.val (congrFun (Option.some.inj e) a)
      have := hh a
      simp only at e1
      omega
    · intro H
      congr 1
      funext a
      refine Fin.ext ?_
      show (D.start j idx a + (D.window j a : Int)).toNat = (i a).val
      rw [H a]
      exact Int.toNat_natCast _
  · rename_i hh
    constructor
    · intro e
      exact absurd e (by simp)
    · intro H
      exfalso
      apply hh
      intro a
      rw [H a]
      exact ⟨Int.natCast_nonneg _, by exact_mod_cast (i a).isLt⟩

/-- A rank-1 index set is its one coordinate range, so a sum over it is the sum over the coordinate. -/
private theorem sum_idx1 {M : Type*} [AddCommMonoid M] {n : Nat} (f : (⟨1, ![n]⟩ : Shape).Idx → M) :
    ∑ i, f i = ∑ a : Fin n, f (ix1 a) := by
  let e : (⟨1, ![n]⟩ : Shape).Idx ≃ Fin n :=
    { toFun := fun i => i 0, invFun := fun a => ix1 a, left_inv := fun i => (eq_ix1 i).symm, right_inv := fun _ => rfl }
  rw [← Equiv.sum_comp e.symm f]
  rfl

/-! ## Rows into a matrix: operand axis 0 is the label's, operand axis 1 the window's

The dimension numbers' lists have at most two entries, so membership, position and the kept axes are decided on the
literal lists. No fact below looks at more than one update row. -/

section RowsCase
variable (h : ScatterDims.WF Sums Labels Rows [1] [0] [0] 1)

/-- Update row `n` reads its one start component at label position `(n, 0)`. -/
private theorem rows_siIdx (j : Rows.Idx) (c : Fin 1) :
    (⟨[1], [0], [0], 1, h⟩ : ScatterDims Sums Labels Rows).siIdx j c = ix2 (j 0) 0 := by
  funext b
  refine Fin.ext ?_
  match b with
  | ⟨0, _⟩ => rfl
  | ⟨1, _⟩ =>
    show c.val = 0
    omega

/-- On operand axis 0 the window starts at the row's label, read signed. -/
private theorem rows_start0 (j : Rows.Idx) (idx : IVec Labels 32) :
    (⟨[1], [0], [0], 1, h⟩ : ScatterDims Sums Labels Rows).start j idx 0 = (idx (ix2 (j 0) 0)).toInt := by
  unfold ScatterDims.start
  rw [dif_pos (show (0 : Fin 2) ∈ [(0 : Fin 2)] from List.mem_singleton.mpr rfl)]
  rw [rows_siIdx]
  rfl

/-- On operand axis 1, which the map does not name, the window starts at 0. -/
private theorem rows_start1 (j : Rows.Idx) (idx : IVec Labels 32) :
    (⟨[1], [0], [0], 1, h⟩ : ScatterDims Sums Labels Rows).start j idx 1 = 0 := by
  unfold ScatterDims.start
  rw [dif_neg (show ¬ (1 : Fin 2) ∈ [(0 : Fin 2)] by decide)]

/-- Operand axis 0 is an inserted axis: its window coordinate is 0. -/
private theorem rows_window0 (j : Rows.Idx) :
    (⟨[1], [0], [0], 1, h⟩ : ScatterDims Sums Labels Rows).window j 0 = 0 := by
  unfold ScatterDims.window
  rw [dif_neg (show ¬ (0 : Fin 2) ∈ Sums.kept [(0 : Fin 2)] by decide)]

/-- Operand axis 1 is the one kept axis: its window coordinate is the update's coordinate on its window axis. -/
private theorem rows_window1 (j : Rows.Idx) :
    (⟨[1], [0], [0], 1, h⟩ : ScatterDims Sums Labels Rows).window j 1 = (j 1).val := by
  unfold ScatterDims.window
  rw [dif_pos (show (1 : Fin 2) ∈ Sums.kept [(0 : Fin 2)] by decide)]
  rfl

/-- Update entry `(n, d')` lands at `(c, d)` exactly when row `n`'s label, read signed, is `c` and `d' = d`. -/
private theorem rows_resultIdx_iff (idx : IVec Labels 32) (n : Fin 500000) (d' d : Fin 128) (c : Fin 1000) :
    (⟨[1], [0], [0], 1, h⟩ : ScatterDims Sums Labels Rows).resultIdx? (ix2 n d') idx = some (ix2 c d)
      ↔ (idx (ix2 n 0)).toInt = (c.val : Int) ∧ d' = d := by
  rw [resultIdx?_eq_some_iff, Fin.forall_fin_two, rows_start0 h, rows_start1 h, rows_window0 h, rows_window1 h]
  show (idx (ix2 n 0)).toInt + ((0 : Nat) : Int) = (c.val : Int) ∧ (0 : Int) + ((d'.val : Nat) : Int) = (d.val : Int)
    ↔ _
  constructor
  · rintro ⟨h0, h1⟩
    exact ⟨by omega, Fin.ext (by omega)⟩
  · rintro ⟨h0, rfl⟩
    exact ⟨by omega, by omega⟩

end RowsCase

/-! ## Scalars into a vector: the one operand axis is the label's, and there is no window axis -/

section OnesCase
variable (h : ScatterDims.WF Counts Labels Ones [] [0] [0] 1)

/-- Update scalar `n` reads its one start component at label position `(n, 0)`. -/
private theorem ones_siIdx (j : Ones.Idx) (c : Fin 1) :
    (⟨[], [0], [0], 1, h⟩ : ScatterDims Counts Labels Ones).siIdx j c = ix2 (j 0) 0 := by
  funext b
  refine Fin.ext ?_
  match b with
  | ⟨0, _⟩ => rfl
  | ⟨1, _⟩ =>
    show c.val = 0
    omega

/-- On the operand's axis the window starts at the scalar's label, read signed. -/
private theorem ones_start0 (j : Ones.Idx) (idx : IVec Labels 32) :
    (⟨[], [0], [0], 1, h⟩ : ScatterDims Counts Labels Ones).start j idx 0 = (idx (ix2 (j 0) 0)).toInt := by
  unfold ScatterDims.start
  rw [dif_pos (show (0 : Fin 1) ∈ [(0 : Fin 1)] from List.mem_singleton.mpr rfl)]
  rw [ones_siIdx]
  rfl

/-- The operand's axis is an inserted axis: its window coordinate is 0. -/
private theorem ones_window0 (j : Ones.Idx) :
    (⟨[], [0], [0], 1, h⟩ : ScatterDims Counts Labels Ones).window j 0 = 0 := by
  unfold ScatterDims.window
  rw [dif_neg (show ¬ (0 : Fin 1) ∈ Counts.kept [(0 : Fin 1)] by decide)]

/-- Update scalar `n` lands at `c` exactly when its label, read signed, is `c`. -/
private theorem ones_resultIdx_iff (idx : IVec Labels 32) (n : Fin 500000) (c : Fin 1000) :
    (⟨[], [0], [0], 1, h⟩ : ScatterDims Counts Labels Ones).resultIdx? (ix1 n) idx = some (ix1 c)
      ↔ (idx (ix2 n 0)).toInt = (c.val : Int) := by
  rw [resultIdx?_eq_some_iff, Fin.forall_fin_one, ones_start0 h, ones_window0 h]
  show (idx (ix2 n 0)).toInt + ((0 : Nat) : Int) = (c.val : Int) ↔ _
  constructor
  · intro h0
    omega
  · intro h0
    omega

end OnesCase

/-! ## The two scatters read at one entry

The sum over the updates that land at the entry is written as the sum over ALL updates of the update or zero, split by
coordinates, and the inner sum over the window coordinate has one nonzero term. The two sides are compared summand by
summand; no sum is ever evaluated. -/

/-- Rows scattered by label and added: entry `(c, d)` is the operand's plus the sum of the entries `(n, d)` of the rows
    whose label, read signed, is `c`. -/
theorem scatterAdd_rows_apply (h : ScatterDims.WF Sums Labels Rows [1] [0] [0] 1)
    (acc : Sums.Idx → EReal) (idx : IVec Labels 32) (upd : Rows.Idx → EReal) (c : Fin 1000) (d : Fin 128) :
    Ideal.hostScatterAdd (⟨[1], [0], [0], 1, h⟩ : ScatterDims Sums Labels Rows) acc idx upd (ix2 c d)
      = acc (ix2 c d) + ∑ n : Fin 500000, if (idx (ix2 n 0)).toInt = (c.val : Int) then upd (ix2 n d) else 0 := by
  unfold Ideal.hostScatterAdd
  refine congrArg (fun x => acc (ix2 c d) + x) ?_
  rw [Finset.sum_filter, sum_idx2]
  refine Finset.sum_congr rfl fun n _ => ?_
  simp only [rows_resultIdx_iff h]
  by_cases hn : (idx (ix2 n 0)).toInt = (c.val : Int)
  · simp only [hn, true_and]
    rw [Finset.sum_ite_eq' Finset.univ d (fun d' => upd (ix2 n d'))]
    simp only [Finset.mem_univ, if_true]
  · simp only [hn, false_and, if_false, Finset.sum_const_zero]

/-- Scalars scattered by label and added: entry `c` is the operand's plus the sum of the scalars whose label, read
    signed, is `c`. -/
theorem scatterAdd_ones_apply (h : ScatterDims.WF Counts Labels Ones [] [0] [0] 1)
    (acc : Counts.Idx → EReal) (idx : IVec Labels 32) (upd : Ones.Idx → EReal) (c : Fin 1000) :
    Ideal.hostScatterAdd (⟨[], [0], [0], 1, h⟩ : ScatterDims Counts Labels Ones) acc idx upd (ix1 c)
      = acc (ix1 c) + ∑ n : Fin 500000, if (idx (ix2 n 0)).toInt = (c.val : Int) then upd (ix1 n) else 0 := by
  unfold Ideal.hostScatterAdd
  refine congrArg (fun x => acc (ix1 c) + x) ?_
  rw [Finset.sum_filter, sum_idx1]
  refine Finset.sum_congr rfl fun n _ => ?_
  simp only [ones_resultIdx_iff h]

end Cert.SegmentSum

end
-- ==== Proof.RefSide.lean ====
/-
  The reference's per-class sums and counts, entry by entry, over the extended reals.

  The reference scatters the rows of `x` by label into a zero 1000 × 128 array, adding, and scatters ones by label
  into a zero vector of 1000. So sum `(c, d)` is the sum of `x (n, d)` over the points `n` whose label, read signed,
  is `c`, and count `c` is the number of such points; a label outside 0 … 999 lands nowhere.
-/
import proofs.«416729_j1881195675951_3_alg».proof.Proof.Gen.ReferenceIdeal
import proofs.«416729_j1881195675951_3_alg».proof.Proof.ScatterRows
import Idealize.ShloMosaic.Lib.Pipeline.Value
import Idealize.ShloMosaic.Lib.IdealHost

noncomputable section

open scoped BigOperators
open Idealize.ShloMosaic Idealize.ShloMosaic.ValueIdx

namespace Cert.ReferenceIdeal.Side

open Cert.ReferenceIdeal Cert.ReferenceIdeal.Gen Cert.SegmentSum

variable {F : FTy → Type} [FloatOps F]

/-- The reference's per-class sums: the rows of `x` scattered by label into zeros, adding. -/
def refSums (x : FVec F S500000x128 .f32) (y : IVec S500000 32) : FVec F S1000x128 .f32 :=
  Host.scatterAdd scatter_S1000x128_S500000x1_S500000x128_1_0_0_1
    (broadcastInDim S1000x128 ![] bcast_S_S1000x128 (constant S_ .f32 0x00000000#32))
    (broadcastInDim S500000x1 ![0] bcast_S500000_S500000x1_0 y) x

/-- The reference's per-class counts: ones scattered by label into zeros, adding. -/
def refCounts (y : IVec S500000 32) : FVec F S1000 .f32 :=
  Host.scatterAdd scatter_S1000_S500000x1_S500000_n_0_0_1
    (broadcastInDim S1000 ![] bcast_S_S1000 (constant S_ .f32 0x00000000#32))
    (broadcastInDim S500000x1 ![0] bcast_S500000_S500000x1_0 y)
    (broadcastInDim S500000 ![] bcast_S_S500000 (constant S_ .f32 0x3F800000#32))

/-! ## The three broadcasts read at an index -/

/-- The zero scalar broadcast to any shape reads zero everywhere. -/
private theorem zeros_apply {T : Shape} (hT : S_.BroadcastsInDim T ![]) (j : T.Idx) :
    broadcastInDim T ![] hT (constant (F := Ideal) S_ .f32 0x00000000#32) j = 0 := by
  rw [broadcastInDim_scalar_apply, constant_apply, Ideal.ofBits_zero_f32]

/-- The scalar one broadcast to any shape reads one everywhere. -/
private theorem ones_apply {T : Shape} (hT : S_.BroadcastsInDim T ![]) (j : T.Idx) :
    broadcastInDim T ![] hT (constant (F := Ideal) S_ .f32 0x3F800000#32) j = 1 := by
  rw [broadcastInDim_scalar_apply, constant_apply, Ideal.ofBits_one_f32]

/-- The labels as a column: entry `(n, 0)` is label `n`. -/
private theorem labelColumn_apply (y : IVec S500000 32) (n : Fin 500000) :
    broadcastInDim S500000x1 ![0] bcast_S500000_S500000x1_0 y (ix2 n 0) = y (ix1 n) :=
  broadcastInDim_apply _ bcast_S500000_S500000x1_0 y (ix2 n 0) (ix1 n) (fun a => match a with
    | ⟨0, _⟩ => by
      show n.val = if (500000 : Nat) = 1 then 0 else n.val
      rw [if_neg (by omega)])

/-! ## The sums and the counts

Each is the accumulating scatter read at one entry: the operand's entry, which is zero, plus the sum over all points of
the point's update where its label is the entry's class. The label column is read back as the label vector, summand by
summand; no sum is ever evaluated. -/

/-! ## The two scatters' dimension numbers are the literal ones -/

/-- The rows' scatter record, its lists written out. -/
private theorem rowsRecord_eq : scatter_S1000x128_S500000x1_S500000x128_1_0_0_1
    = (⟨[1], [0], [0], 1, scatter_S1000x128_S500000x1_S500000x128_1_0_0_1_wf⟩ : ScatterDims Sums Labels Rows) := rfl

/-- The scalars' scatter record, its lists written out. -/
private theorem onesRecord_eq : scatter_S1000_S500000x1_S500000_n_0_0_1
    = (⟨[], [0], [0], 1, scatter_S1000_S500000x1_S500000_n_0_0_1_wf⟩ : ScatterDims Counts Labels Ones) := rfl

/-- Sum `(c, d)`: the entries `(n, d)` of the points labelled `c`, added. -/
theorem refSums_apply (x : FVec Ideal S500000x128 .f32) (y : IVec S500000 32) (c : Fin 1000) (d : Fin 128) :
    refSums (F := Ideal) x y (ix2 c d)
      = ∑ n : Fin 500000, if (y (ix1 n)).toInt = (c.val : Int) then x (ix2 n d) else 0 := by
  rw [refSums, Host.scatterAdd, Ideal.hostScatterAdd_def, rowsRecord_eq, scatterAdd_rows_apply, zeros_apply, zero_add]
  refine Finset.sum_congr rfl fun n _ => ?_
  rw [labelColumn_apply]

/-- Count `c`: one for each point labelled `c`, added. -/
theorem refCounts_apply (y : IVec S500000 32) (c : Fin 1000) :
    refCounts (F := Ideal) y (ix1 c) = ∑ n : Fin 500000, if (y (ix1 n)).toInt = (c.val : Int) then (1 : EReal) else 0 := by
  rw [refCounts, Host.scatterAdd, Ideal.hostScatterAdd_def, onesRecord_eq, scatterAdd_ones_apply, zeros_apply, zero_add]
  refine Finset.sum_congr rfl fun n _ => ?_
  rw [labelColumn_apply, ones_apply]

end Cert.ReferenceIdeal.Side

end
-- ==== Proof.RefUpdate.lean ====
/-
  The reference's result: the centers update of its per-class sums and counts.

  The reference's composed term is, operation for operation, the centers update applied to the scatter-added sums and
  counts, the centers and the counter; its four argument arrays end as they were.
-/
import proofs.«416729_j1881195675951_3_alg».proof.Proof.RefRun
import proofs.«416729_j1881195675951_3_alg».proof.Proof.RefSide
import proofs.«416729_j1881195675951_3_alg».proof.Proof.Update

noncomputable section

open Idealize.ShloMosaic Idealize.ShloMosaic.TcCoe Idealize.SL.Sem

namespace Cert.ReferenceIdeal.Side

open Cert.ReferenceIdeal Cert.ReferenceIdeal.Gen Cert.SegmentSum

variable {F : FTy → Type} [FloatOps F]
variable (m : (ℓ : Loc nD τ sig) → Buf (Elt F) ℓ) (ρ : Dev nD → PrngReg)

/-- The reference's result as a function of its four arguments. -/
def result (c : Dev nD) : Buf (Elt F) ((c.tc : Thread nD τ).loc main_v24) :=
  centersUpdate bcast_S_S1000 bcast_S1000_S1000x1_0 bcast_S1000x1_S1000x128_0_1 bcast_S1_S1x1_1 bcast_S1x1_S1000x128_0_1
    bcast_S_S1
    (refSums (m ((c.tc : Thread nD τ).loc main_arg0)) (m ((c.tc : Thread nD τ).loc main_arg1)))
    (refCounts (m ((c.tc : Thread nD τ).loc main_arg1)))
    (m ((c.tc : Thread nD τ).loc main_arg2)) (m ((c.tc : Thread nD τ).loc main_arg3))

/-- The run, read: the result buffer at `result`, the four arguments unchanged. -/
theorem run_update : θ_run defs (onTc (τ := τ) (main (F := F))) ⟨m, fun _ => 0, ρ⟩ (fun r => ∀ c : Dev nD,
      r.2.mem ((c.tc : Thread nD τ).loc main_v24) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨(h c).1.trans rfl, (h c).2⟩) (Cert.ReferenceIdeal.RunP.run m ρ)

end Cert.ReferenceIdeal.Side

end
-- ==== Proof.Tile.lean ====
/-
  One tile of the one-hot product, entry by entry, over the extended reals.

  The body compares the class numbers 0 … 1023 (a column) with the tile's 5000 label words (a row): a 1024 × 5000 table
  of ones and zeros. It multiplies that table into the tile's 5000 × 256 block whose first 128 columns are the points'
  rows and whose last 128 columns are all one, and adds the product to what the accumulator held. A change of float
  format is the identity here, and a product with the zero accumulator is the plain sum. So entry `(cls, col)` of the
  stored block is the accumulator's entry plus the sum over the tile's points labelled `cls` of the point's entry in
  column `col` (or of one, in a count column).
-/
import proofs.«416729_j1881195675951_3_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators
open Idealize.ShloMosaic Idealize.ShloMosaic.ValueIdx

namespace Cert.KernelIdeal.Tile

open Cert.KernelIdeal Cert.KernelIdeal.Gen

/-- The bf16 word `0x3F80` denotes one. -/
private theorem bf16_one : Ideal.ofBits .bf16 0x3F80#16 = 1 :=
  IdealRules.sign_bit.ideal_onePat .bf16

/-- One entry of the table of ones and zeros: the compare's bit, widened and read as a signed integer, is one where the
    two words agree and zero elsewhere. -/
private theorem oneHot_word (a b : BitVec 32) :
    (FloatOps.sitofp (F := Ideal) .f32 ((IntOp.cmpi .eq a b).setWidth 32) : EReal) = if a = b then 1 else 0 := by
  show (((((IntOp.cmpi .eq a b).setWidth 32).toInt : ℤ) : ℝ) : EReal) = _
  by_cases h : a = b
  · subst h
    rw [if_pos rfl]
    have e : (IntOp.cmpi .eq a a).setWidth 32 = 1#32 := by
      unfold IntOp.cmpi
      rw [show (a == a) = true from beq_self_eq_true a]
      rfl
    rw [e]
    norm_num
  · rw [if_neg h]
    have e : (IntOp.cmpi .eq a b).setWidth 32 = 0#32 := by
      unfold IntOp.cmpi
      rw [show (a == b) = false from beq_false_of_ne h]
      rfl
    rw [e]
    norm_num

/-! ### The product's operand indices

At output entry `(cls, col)` and contraction position `k` the left operand is read at `(cls, k)` and the right one at
`(k, col)`: one lemma per operand axis, each taking one branch of the index's definition. -/

private theorem lhs_axis0 (i : S1024x256.Idx) (q : dot_S1024x5000_S5000x256_S1024x256_1_0_0_1_n_n.contr.Idx) :
    (dot_S1024x5000_S5000x256_S1024x256_1_0_0_1_n_n.lhsIdx i q 0).val = (i 0).val := by
  unfold DotDims.lhsIdx
  rw [dif_neg (show ¬(0 : Fin S1024x5000.rank) ∈ dot_S1024x5000_S5000x256_S1024x256_1_0_0_1_n_n.lhsBatch by decide),
    dif_pos (show (0 : Fin S1024x5000.rank) ∈ dot_S1024x5000_S5000x256_S1024x256_1_0_0_1_n_n.lhsNonContracting by decide)]
  rfl

private theorem lhs_axis1 (i : S1024x256.Idx) (q : dot_S1024x5000_S5000x256_S1024x256_1_0_0_1_n_n.contr.Idx) :
    (dot_S1024x5000_S5000x256_S1024x256_1_0_0_1_n_n.lhsIdx i q 1).val = (q ⟨0, by decide⟩).val :=
  dot_S1024x5000_S5000x256_S1024x256_1_0_0_1_n_n.lhsIdx_val_of_single rfl i q

private theorem rhs_axis0 (i : S1024x256.Idx) (q : dot_S1024x5000_S5000x256_S1024x256_1_0_0_1_n_n.contr.Idx) :
    (dot_S1024x5000_S5000x256_S1024x256_1_0_0_1_n_n.rhsIdx i q 0).val = (q ⟨0, by decide⟩).val :=
  dot_S1024x5000_S5000x256_S1024x256_1_0_0_1_n_n.rhsIdx_val_of_single rfl i q

private theorem rhs_axis1 (i : S1024x256.Idx) (q : dot_S1024x5000_S5000x256_S1024x256_1_0_0_1_n_n.contr.Idx) :
    (dot_S1024x5000_S5000x256_S1024x256_1_0_0_1_n_n.rhsIdx i q 1).val = (i 1).val := by
  unfold DotDims.rhsIdx
  rw [dif_neg (show ¬(1 : Fin S5000x256.rank) ∈ dot_S1024x5000_S5000x256_S1024x256_1_0_0_1_n_n.rhsBatch by decide),
    dif_pos (show (1 : Fin S5000x256.rank) ∈ dot_S1024x5000_S5000x256_S1024x256_1_0_0_1_n_n.rhsNonContracting by decide)]
  rfl

/-! ### The two operands at an entry -/

/-- The column of class numbers, spread over the tile's points, reads the class number's word. -/
private theorem classes_apply (cls : Fin 1024) (k : Fin 5000) :
    broadcastTo S1024x5000 (iota .tc S1024x1 32 [0] iota_S1024x1_d0_w32) broadcasts_S1024x1_S1024x5000 (ix2 cls k)
      = BitVec.ofNat 32 cls.val := by
  refine (broadcastTo_apply _ broadcasts_S1024x1_S1024x5000 (ix2 cls k) (ix2 cls (0 : Fin 1)) fun a => ?_).trans ?_
  · match a with
    | ⟨0, _⟩ => rfl
    | ⟨1, _⟩ => rfl
  · exact iota_single_apply .tc S1024x1 32 0 iota_S1024x1_d0_w32 (ix2 cls (0 : Fin 1))

/-- The row of label words, spread over the classes, reads the point's label word. -/
private theorem labels_apply (yb : Vec Ideal S1x1x5000 .i32) (cls : Fin 1024) (k : Fin 5000) :
    broadcastTo S1024x5000 (shapeCast S1x5000 yb shapeCasts_S1x1x5000_S1x5000) broadcasts_S1x5000_S1024x5000 (ix2 cls k)
      = yb (ix3 0 0 k) :=
  (broadcastTo_1b_ab_apply _ broadcasts_S1x5000_S1024x5000 cls k).trans
    (shapeCast_1ab_ab_apply yb shapeCasts_S1x1x5000_S1x5000 (0 : Fin 1) k)

/-- The right operand at `(k, col)`: the point's row entry in a column below 128, one in a count column. -/
private theorem block_apply (xb : Vec Ideal S5000x128 .f32) (k : Fin 5000) (col : Fin 256) :
    (concatenate S5000x256 1 [⟨S5000x128, truncf (F := Ideal) .bf16 xb bitsLt_bf16_f32⟩,
        ⟨S5000x128, broadcast S5000x128 (Scalar.ofBits (F := Ideal) .bf16 0x3F80#16)⟩]
        concatenates_S5000x128_S5000x128_S5000x256_d1 : FVec Ideal S5000x256 .bf16) (ix2 k col)
      = if h : col.val < 128 then xb (ix2 k ⟨col.val, h⟩) else 1 := by
  by_cases h : col.val < 128
  · rw [dif_pos h]
    refine (concatenate_pair_apply_left 1 _ _ concatenates_S5000x128_S5000x128_S5000x256_d1 (ix2 k col) rfl
      (ix2 k ⟨col.val, h⟩) fun b => ?_).trans rfl
    match b with
    | ⟨0, _⟩ => rfl
    | ⟨1, _⟩ => rfl
  · rw [dif_neg h]
    have hc := col.isLt
    refine (concatenate_pair_apply_right 1 _ _ concatenates_S5000x128_S5000x128_S5000x256_d1 (ix2 k col) rfl rfl
      (ix2 k ⟨col.val - 128, by omega⟩) (fun b hb => ?_) ?_).trans bf16_one
    · match b with
      | ⟨0, _⟩ => rfl
      | ⟨1, _⟩ => exact absurd rfl hb
    · show col.val - 128 + 128 = col.val
      omega

/-- One tile's contribution to class row `cls`, column `col` of the fused accumulator: the sum, over the tile's 5000
    points, of the point's row entry (columns below 128) or of one (the 128 count columns), taken only where the point's
    label word is `cls`. -/
def tileTerm (xb : Vec Ideal S5000x128 .f32) (yb : Vec Ideal S1x1x5000 .i32) (cls : Fin 1024) (col : Fin 256) : EReal :=
  ∑ k : Fin 5000, if BitVec.ofNat 32 cls.val = yb (ix3 0 0 k) then (if h : col.val < 128 then xb (ix2 k ⟨col.val, h⟩) else 1) else 0

/-- The block the reset stores is zero everywhere. -/
theorem pay1_apply (j : S1x1024x256.Idx) : k0_pay1 (F := Ideal) j = 0 := by
  obtain ⟨u, p, q, rfl⟩ : ∃ (u : Fin 1) (p : Fin 1024) (q : Fin 256), j = ix3 u p q := ⟨j 0, j 1, j 2, eq_ix3 j⟩
  unfold k0_pay1
  refine (shapeCast_ab_1ab_apply _ _ u p q).trans ?_
  exact Ideal.ofBits_zero_f32

/-- The accumulating store's block, at class row `cls` and column `col`: the accumulator's entry plus the tile's term. -/
theorem pay2_apply (xb : Vec Ideal S5000x128 .f32) (yb : Vec Ideal S1x1x5000 .i32) (acc : Vec Ideal S1x1024x256 .f32)
    (cls : Fin 1024) (col : Fin 256) :
    k0_pay2 (F := Ideal) xb yb acc (ix3 0 cls col) = acc (ix3 0 cls col) + tileTerm xb yb cls col := by
  unfold k0_pay2
  -- the two casts around the sum only add and drop the leading unit axis
  refine (shapeCast_ab_1ab_apply _ _ (0 : Fin 1) cls col).trans ?_
  rw [addf_apply, shapeCast_1ab_ab_apply]
  refine congrArg (acc (ix3 0 cls col) + ·) ?_
  -- the product into the zero accumulator is the plain sum over the contraction, re-indexed by the tile's points
  refine (Ideal.matmul_constant_zero_apply _ none _ _ _).trans ?_
  rw [← Equiv.sum_comp (contrEquiv1 dot_S1024x5000_S5000x256_S1024x256_1_0_0_1_n_n 5000 rfl rfl).symm]
  unfold tileTerm
  refine Finset.sum_congr rfl fun k _ => ?_
  have hk := contrEquiv1_symm_val dot_S1024x5000_S5000x256_S1024x256_1_0_0_1_n_n 5000 rfl rfl k
  have el : dot_S1024x5000_S5000x256_S1024x256_1_0_0_1_n_n.lhsIdx (ix2 cls col)
      ((contrEquiv1 dot_S1024x5000_S5000x256_S1024x256_1_0_0_1_n_n 5000 rfl rfl).symm k) = ix2 cls k :=
    funext fun a => Fin.ext (by
      match a with
      | ⟨0, _⟩ => exact lhs_axis0 _ _
      | ⟨1, _⟩ => exact (lhs_axis1 _ _).trans hk)
  have er : dot_S1024x5000_S5000x256_S1024x256_1_0_0_1_n_n.rhsIdx (ix2 cls col)
      ((contrEquiv1 dot_S1024x5000_S5000x256_S1024x256_1_0_0_1_n_n 5000 rfl rfl).symm k) = ix2 k col :=
    funext fun a => Fin.ext (by
      match a with
      | ⟨0, _⟩ => exact (rhs_axis0 _ _).trans hk
      | ⟨1, _⟩ => exact rhs_axis1 _ _)
  rw [el, er, block_apply]
  -- the left factor: a format change is the identity, and the widened compare bit reads one or zero
  rw [truncf_apply, sitofp_apply, extui_apply]
  show FloatOps.sitofp (F := Ideal) .f32 ((IntOp.cmpi .eq
      (broadcastTo S1024x5000 (iota .tc S1024x1 32 [0] iota_S1024x1_d0_w32) broadcasts_S1024x1_S1024x5000 (ix2 cls k))
      (broadcastTo S1024x5000 (shapeCast S1x5000 yb shapeCasts_S1x1x5000_S1x5000) broadcasts_S1x5000_S1024x5000 (ix2 cls k))).setWidth 32)
    * _ = _
  rw [classes_apply, labels_apply, oneHot_word]
  by_cases hy : BitVec.ofNat 32 cls.val = yb (ix3 0 0 k)
  · rw [if_pos hy, if_pos hy, one_mul]
  · rw [if_neg hy, if_neg hy, zero_mul]

end Cert.KernelIdeal.Tile

end
-- ==== Proof.Retile.lean ====
/-
  Sums over a run of tiles, in any commutative monoid (used at the extended reals).

  An accumulator that is reset at every 50th step and otherwise adds the step's term to what it held holds, after
  step `n`, the sum of the terms of the steps from the last reset up to `n`: a WINDOW of steps. After the last step of
  each of the two halves of a 100-step run the two windows are disjoint and together are all steps. And a sum over 100
  tiles of 5000 points each is the sum over the 500000 points, the point `k` of tile `t` being point `5000 t + k`.
-/
import Mathlib.Algebra.BigOperators.Fin
import Mathlib.Algebra.BigOperators.Group.Finset.Piecewise
import Mathlib.Logic.Equiv.Fin.Basic

open scoped BigOperators

namespace Cert.SegmentSum

variable {α : Type*} [AddCommMonoid α]

/-- At a reset step the window is that step alone. -/
theorem window_reset {N : ℕ} (f : Fin N → α) (n : Fin N) (h : n.val % 50 = 0) :
    (∑ t : Fin N, if n.val / 50 * 50 ≤ t.val ∧ t.val ≤ n.val then f t else 0) = f n := by
  rw [Finset.sum_eq_single n]
  · rw [if_pos ⟨by omega, le_refl _⟩]
  · intro t _ hne
    rw [if_neg]
    rintro ⟨h1, h2⟩
    exact hne (Fin.ext (by omega))
  · intro hn
    exact absurd (Finset.mem_univ _) hn

/-- At any other step the window is the previous step's window and the step itself. -/
theorem window_step {N : ℕ} (f : Fin N → α) (n : Fin N) (h : ¬n.val % 50 = 0) :
    (∑ t : Fin N, if n.val / 50 * 50 ≤ t.val ∧ t.val ≤ n.val then f t else 0)
      = (∑ t : Fin N, if (n.val - 1) / 50 * 50 ≤ t.val ∧ t.val ≤ n.val - 1 then f t else 0) + f n := by
  have key : ∀ t : Fin N, (if n.val / 50 * 50 ≤ t.val ∧ t.val ≤ n.val then f t else 0)
      = (if (n.val - 1) / 50 * 50 ≤ t.val ∧ t.val ≤ n.val - 1 then f t else 0) + (if t = n then f t else 0) := by
    intro t
    by_cases ht : t = n
    · subst ht
      rw [if_pos ⟨by omega, le_refl _⟩, if_neg (by omega), if_pos rfl, zero_add]
    · have hv : t.val ≠ n.val := fun hh => ht (Fin.ext hh)
      rw [if_neg ht, add_zero]
      exact if_congr ⟨fun ⟨a, b⟩ => ⟨by omega, by omega⟩, fun ⟨a, b⟩ => ⟨by omega, by omega⟩⟩ rfl rfl
  rw [Finset.sum_congr rfl (fun t _ => key t), Finset.sum_add_distrib, Finset.sum_ite_eq' Finset.univ n f,
    if_pos (Finset.mem_univ _)]

/-- The windows after steps 49 and 99 of a 100-step run partition the steps. -/
theorem window_halves {N : ℕ} (hN : N = 100) (f : Fin N → α) :
    (∑ t : Fin N, if 49 / 50 * 50 ≤ t.val ∧ t.val ≤ 49 then f t else 0)
      + (∑ t : Fin N, if 99 / 50 * 50 ≤ t.val ∧ t.val ≤ 99 then f t else 0) = ∑ t : Fin N, f t := by
  rw [← Finset.sum_add_distrib]
  refine Finset.sum_congr rfl fun t _ => ?_
  have ht : t.val < 100 := hN ▸ t.isLt
  by_cases h49 : t.val ≤ 49
  · rw [if_pos ⟨by omega, h49⟩, if_neg (by omega), add_zero]
  · rw [if_neg (by omega), if_pos ⟨by omega, by omega⟩, zero_add]

/-- A sum over 100 tiles of 5000 points is the sum over the 500000 points. -/
theorem sum_tiles (G : Fin 500000 → α) :
    (∑ t : Fin 100, ∑ k : Fin 5000, G ⟨t.val * 5000 + k.val, by omega⟩) = ∑ n : Fin 500000, G n := by
  rw [← Fintype.sum_prod_type' (f := fun (t : Fin 100) (k : Fin 5000) => G ⟨t.val * 5000 + k.val, by omega⟩)]
  refine Fintype.sum_equiv ((finProdFinEquiv (m := 100) (n := 5000)).trans (finCongr (show 100 * 5000 = 500000 from rfl))) _ _ fun x => ?_
  refine congrArg G (Fin.ext ?_)
  simp only [Equiv.trans_apply, finCongr_apply, Fin.coe_cast, finProdFinEquiv_apply_val]
  omega

end Cert.SegmentSum
-- ==== Proof.Running.lean ====
/-
  The accumulator after each step, entry by entry, over the extended reals.

  Step `t` of the 100-step run works on row tile `t` and label tile `t`. At a reset step (`t` a multiple of 50) the
  accumulator ends at the tile's term over zero; at any other step at the tile's term over what the step before left. So
  after step `n` entry `(cls, col)` is the sum of the terms of the tiles from the last reset up to `n`.
-/
import proofs.«416729_j1881195675951_3_alg».proof.Proof.Pieces
import proofs.«416729_j1881195675951_3_alg».proof.Proof.Tile
import proofs.«416729_j1881195675951_3_alg».proof.Proof.Retile

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Tile Cert.SegmentSum

section AnyFloat

variable {F : FTy → Type} [FloatOps F]
variable (m : (ℓ : Loc nD τ sig) → Buf (Elt F) ℓ)

/-- Step `t`'s row tile and label tile, at their literal types. -/
abbrev xblk (c : Dev nD) (t : Fin cfg0.N) : Vec F S5000x128 .f32 := iblk m c 0 t
abbrev yblk (c : Dev nD) (t : Fin cfg0.N) : Vec F S1x1x5000 .i32 := iblk m c 1 t

/-- After a reset step: the payload of the step's tiles over the zero block. -/
theorem at_reset (c : Dev nD) (t : Fin cfg0.N) (h0 : t.val % 50 = 0) :
    outsAt0 m c t.val t.isLt = k0_pay2 (xblk m c t) (yblk m c t) (k0_pay1 (F := F)) :=
  (outsAt0_A m c t h0).trans
    (out_reset c (grid0.coords t) (ms0_0 t) (hs0_0 t) (ms0_1 t) (hs0_1 t) (ms0_2 t) (hs0_2 t) ((hcond0_0 t).mpr h0)
      (iblk m c 0 t) (iblk m c 1 t))

/-- After any other step: the payload of the step's tiles over what the step before left. -/
theorem at_step (c : Dev nD) (t : Fin cfg0.N) (h0 : ¬t.val % 50 = 0) :
    outsAt0 m c t.val t.isLt
      = k0_pay2 (xblk m c t) (yblk m c t) (outsAt0 m c (t.val - 1) (Nat.lt_of_le_of_lt (Nat.sub_le _ _) t.isLt)) :=
  (outsAt0_B m c t h0).trans
    (out_step c (grid0.coords t) (ms0_0 t) (hs0_0 t) (ms0_1 t) (hs0_1 t) (ms0_2 t) (hs0_2 t)
      (fun h => h0 ((hcond0_0 t).mp h)) (iblk m c 0 t) (iblk m c 1 t)
      (outsAt0 m c (t.val - 1) (Nat.lt_of_le_of_lt (Nat.sub_le _ _) t.isLt)))

end AnyFloat

variable (m : (ℓ : Loc nD τ sig) → Buf (Elt Ideal) ℓ)

/-- Tile `t`'s term at class row `cls`, column `col`. -/
abbrev term (c : Dev nD) (cls : Fin 1024) (col : Fin 256) (t : Fin cfg0.N) : EReal :=
  tileTerm (xblk m c t) (yblk m c t) cls col

/-- After step `n` the accumulator's entry is the sum of the terms of the tiles since the last reset. -/
theorem running (c : Dev nD) (cls : Fin 1024) (col : Fin 256) : ∀ (n : ℕ) (h : n < cfg0.N),
    outsAt0 (F := Ideal) m c n h (ix3 0 cls col)
      = ∑ t : Fin cfg0.N, if n / 50 * 50 ≤ t.val ∧ t.val ≤ n then term m c cls col t else 0 := by
  intro n
  induction n with
  | zero =>
    intro h
    have e := at_reset m c ⟨0, h⟩ rfl
    dsimp only at e
    rw [e, pay2_apply, pay1_apply, zero_add]
    exact (window_reset (term m c cls col) ⟨0, h⟩ rfl).symm
  | succ n ih =>
    intro h
    by_cases h0 : (n + 1) % 50 = 0
    · have e := at_reset m c ⟨n + 1, h⟩ h0
      dsimp only at e
      rw [e, pay2_apply, pay1_apply, zero_add]
      exact (window_reset (term m c cls col) ⟨n + 1, h⟩ h0).symm
    · have e := at_step m c ⟨n + 1, h⟩ h0
      dsimp only at e
      have w := window_step (term m c cls col) ⟨n + 1, h⟩ h0
      dsimp only at w
      simp only [Nat.add_sub_cancel] at e w
      rw [e, pay2_apply, w]
      exact congrArg (· + tileTerm (xblk m c ⟨n + 1, h⟩) (yblk m c ⟨n + 1, h⟩) cls col) (ih (Nat.lt_of_succ_lt h))

end Cert.KernelIdeal.Acc

end
-- ==== Proof.Blocks.lean ====
/-
  All tiles together: the sum of the tiles' terms is a sum over the 500000 points.

  Tile `t`'s row block is rows `5000 t … 5000 t + 4999` of `x`, and its label block is the same stretch of the labels
  (the labels enter the call reshaped to 100 × 1 × 5000, which keeps their order). So point `k` of tile `t` is point
  `5000 t + k`, and the 100 tiles' terms add up to the sum over all points.
-/
import proofs.«416729_j1881195675951_3_alg».proof.Proof.Running
import Idealize.ShloMosaic.Lib.StableHlo.Run

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Tile Cert.SegmentSum

variable (m : (ℓ : Loc nD τ sig) → Buf (Elt Ideal) ℓ)

/-- The argument arrays `x` and the labels, at their literal types. -/
abbrev xarr (c : Dev nD) : Vec Ideal S500000x128 .f32 := m ((c : Thread nD τ).loc main_arg0)
abbrev yarr (c : Dev nD) : Vec Ideal S500000 .i32 := m ((c : Thread nD τ).loc main_arg1)

/-! ### A tile's point is a point of the arrays -/

/-- Step `t` reads block `t` of the rows and block `t` of the reshaped labels, at offset zero on every other axis:
    the printed index maps, decided over the 100 steps. -/
private theorem idx_facts : ∀ t : Fin cfg0.N, win0_0.index t (0 : Fin 2) = t.val ∧ win0_0.index t (1 : Fin 2) = 0
    ∧ win0_1.index t (0 : Fin 3) = t.val ∧ win0_1.index t (1 : Fin 3) = 0 ∧ win0_1.index t (2 : Fin 3) = 0 :=
  (by decide +kernel : ∀ t : Fin grid0.N, _)

/-- Point `k` of tile `t` is one of the 500000 points. -/
private theorem pt_lt (t : Fin cfg0.N) (k : Fin 5000) : t.val * 5000 + k.val < 500000 := by
  have ht : t.val < 100 := lt_of_lt_of_eq t.isLt N_0
  have hk := k.isLt
  omega

/-- Tile `t`'s row block at `(k, d)` is row `5000 t + k` of `x`, column `d`. -/
private theorem xblk_apply (c : Dev nD) (t : Fin cfg0.N) (k : Fin 5000) (d : Fin 128) :
    xblk m c t (ix2 k d) = xarr m c (ix2 ⟨t.val * 5000 + k.val, pt_lt t k⟩ d) := by
  obtain ⟨e0, e1, -, -, -⟩ := idx_facts t
  show V m c main_arg0 (((cfg0.win 0).blk t).view.emb (ix2 k d)) = _
  rw [V_main_arg0]
  refine congrArg (xarr m c) (funext fun a => Fin.ext ?_)
  match a with
  | ⟨0, _⟩ => show win0_0.index t (0 : Fin 2) * 5000 + 1 * k.val = t.val * 5000 + k.val; omega
  | ⟨1, _⟩ => show win0_0.index t (1 : Fin 2) * 128 + 1 * d.val = d.val; omega

/-- The labels enter the call reshaped to 100 × 1 × 5000. -/
private theorem labels_entry (c : Dev nD) :
    (V m c main_v0 : S100x1x5000.Idx → Elt Ideal .i32) = shapeCast S100x1x5000 (yarr m c) shapeCasts_S500000_S100x1x5000 := by
  dsimp only [Gen.V, Gen.V0]
  simp only [Gen.hostOps0, List.flatten_cons, List.flatten_nil, List.append_nil]
  after_results
  rfl

/-- Tile `t`'s label block at `k` is label `5000 t + k`: the reshape keeps the row-major order. -/
private theorem yblk_apply (c : Dev nD) (t : Fin cfg0.N) (k : Fin 5000) :
    yblk m c t (ix3 0 0 k) = yarr m c (ix1 ⟨t.val * 5000 + k.val, pt_lt t k⟩) := by
  obtain ⟨-, -, e0, e1, e2⟩ := idx_facts t
  show V m c main_v0 (((cfg0.win 1).blk t).view.emb (ix3 0 0 k)) = _
  rw [labels_entry]
  refine shapeCast_apply (yarr m c) shapeCasts_S500000_S100x1x5000 _ (ix1 ⟨t.val * 5000 + k.val, pt_lt t k⟩) ?_
  rw [Shape.rowMajor_val_one, Shape.rowMajor_val_three]
  show t.val * 5000 + k.val = ((win0_1.index t (0 : Fin 3) * 1 + 1 * 0) * 1 + (win0_1.index t (1 : Fin 3) * 1 + 1 * 0)) * 5000
    + (win0_1.index t (2 : Fin 3) * 5000 + 1 * k.val)
  omega

/-- The sum over all tiles of the tiles' terms at class row `cls`, column `col`, as a sum over the points: a point
    contributes its entry in column `col` (one, in a count column) when its label word is `cls`. -/
theorem sum_terms (c : Dev nD) (cls : Fin 1024) (col : Fin 256) :
    (∑ t : Fin cfg0.N, term m c cls col t)
      = ∑ n : Fin 500000, if BitVec.ofNat 32 cls.val = yarr m c (ix1 n)
          then (if h : col.val < 128 then xarr m c (ix2 n ⟨col.val, h⟩) else 1) else 0 := by
  -- a tile's term is the points' sum over the tile's stretch of points
  have key : ∀ t : Fin cfg0.N, term m c cls col t
      = ∑ k : Fin 5000, (fun n : Fin 500000 => if BitVec.ofNat 32 cls.val = yarr m c (ix1 n)
          then (if h : col.val < 128 then xarr m c (ix2 n ⟨col.val, h⟩) else 1) else 0) ⟨t.val * 5000 + k.val, pt_lt t k⟩ := by
    intro t
    show tileTerm (xblk m c t) (yblk m c t) cls col = _
    unfold tileTerm
    refine Finset.sum_congr rfl fun k _ => ?_
    rw [yblk_apply]
    by_cases hy : BitVec.ofNat 32 cls.val = yarr m c (ix1 ⟨t.val * 5000 + k.val, pt_lt t k⟩)
    · rw [if_pos hy]
      show _ = if BitVec.ofNat 32 cls.val = yarr m c (ix1 ⟨t.val * 5000 + k.val, pt_lt t k⟩)
        then (if h : col.val < 128 then xarr m c (ix2 ⟨t.val * 5000 + k.val, pt_lt t k⟩ ⟨col.val, h⟩) else 1) else 0
      rw [if_pos hy]
      by_cases h : col.val < 128
      · rw [dif_pos h, dif_pos h, xblk_apply]
      · rw [dif_neg h, dif_neg h]
    · rw [if_neg hy]
      exact (if_neg hy).symm
  rw [Finset.sum_congr rfl fun t _ => key t]
  -- the 100 stretches of 5000 points are all the points
  refine Eq.trans ?_ (sum_tiles (fun n : Fin 500000 => if BitVec.ofNat 32 cls.val = yarr m c (ix1 n)
      then (if h : col.val < 128 then xarr m c (ix2 n ⟨col.val, h⟩) else 1) else 0))
  exact Fintype.sum_equiv (finCongr N_0) _ _ fun t => rfl

end Cert.KernelIdeal.Acc

end
-- ==== Proof.Total.lean ====
/-
  The two cores' accumulators added: a sum over all points.

  Core 0 accumulates tiles 0 … 49 and core 1 tiles 50 … 99. Adding the two result blocks entry by entry gives the sum
  of all 100 tiles' terms, which is the sum over the 500000 points: at class row `cls` and column `col`, the entries in
  column `col` (or ones, in a count column) of the points whose label word is `cls`.
-/
import proofs.«416729_j1881195675951_3_alg».proof.Proof.Running
import proofs.«416729_j1881195675951_3_alg».proof.Proof.Final
import proofs.«416729_j1881195675951_3_alg».proof.Proof.Blocks

noncomputable section

open scoped BigOperators
open Idealize.ShloMosaic Idealize.ShloMosaic.TcCoe Idealize.SL.Sem Idealize.ShloMosaic.ValueIdx

namespace Cert.KernelIdeal.Acc

open Cert.KernelIdeal Cert.KernelIdeal.Gen Cert.KernelIdeal.Tile Cert.SegmentSum

variable (m : (ℓ : Loc nD τ sig) → Buf (Elt Ideal) ℓ)

/-- A class number below 1000, as a 32-bit word, is a label word exactly when the label read signed is that number. -/
theorem word_eq_iff (c : ℕ) (hc : c < 1000) (w : BitVec 32) : BitVec.ofNat 32 c = w ↔ w.toInt = (c : Int) := by
  have hw := w.isLt
  constructor
  · rintro rfl
    rw [BitVec.toInt_eq_toNat_cond, BitVec.toNat_ofNat]
    omega
  · intro h
    apply BitVec.eq_of_toNat_eq
    rw [BitVec.toNat_ofNat]
    rw [BitVec.toInt_eq_toNat_cond] at h
    omega

/-- The result array of the call, at its literal type. -/
abbrev outs (c : Dev nD) : Vec Ideal S2x1024x256 .f32 := outArr m c

/-- The two result blocks added, at class row `cls` and column `col`. -/
theorem blocks_added (c : Dev nD) (cls : Fin 1024) (col : Fin 256) :
    outs m c (ix3 (0 : Fin 2) cls col) + outs m c (ix3 (1 : Fin 2) cls col)
      = ∑ n : Fin 500000, if BitVec.ofNat 32 cls.val = yarr m c (ix1 n)
          then (if h : col.val < 128 then xarr m c (ix2 n ⟨col.val, h⟩) else 1) else 0 := by
  show outsAt0 m c 49 (last_lt 0) (ix3 (0 : Fin 1) cls col) + outsAt0 m c 99 (last_lt 1) (ix3 (0 : Fin 1) cls col) = _
  rw [running m c cls col 49 (last_lt 0), running m c cls col 99 (last_lt 1), window_halves N_0 (term m c cls col),
    sum_terms]

end Cert.KernelIdeal.Acc

end
-- ==== Proof.TailRead.lean ====
/-
  The kernel's per-class sums and counts, entry by entry, over the extended reals.

  Sum `(c, d)` is entry `(c, d)` of core 0's block plus entry `(c, d)` of core 1's block; count `c` is the same with
  column 128. The slices start at row 0 and at column 0 (or 128) and the reshapes only drop or add an axis of extent one.
-/
import proofs.«416729_j1881195675951_3_alg».proof.Proof.KTail
import Idealize.ShloMosaic.Lib.ValueLayout

noncomputable section

open Idealize.ShloMosaic Idealize.ShloMosaic.ValueIdx

namespace Cert.KernelIdeal.Acc

open Cert.KernelIdeal Cert.KernelIdeal.Gen

/-- The added blocks at `(r, q)`: core 0's entry plus core 1's. Each slice takes one core's block (offset 0 or 1 on
    the leading axis, zero elsewhere) and the cast drops the leading axis of extent one. -/
private theorem added_apply (o : FVec Ideal S2x1024x256 .f32) (r : Fin 1024) (q : Fin 256) :
    added (F := Ideal) o (ix2 r q) = o (ix3 (0 : Fin 2) r q) + o (ix3 (1 : Fin 2) r q) := by
  unfold added
  rw [addf_apply, shapeCast_1ab_ab_apply, shapeCast_1ab_ab_apply]
  refine congrArg₂ (· + ·) ?_ ?_
  · exact extractStridedSlice_apply _ o slices_S2x1024x256_S1x1024x256_0_0_0 (ix3 (0 : Fin 1) r q) (ix3 (0 : Fin 2) r q)
      fun a => by
        match a with
        | ⟨0, _⟩ => rfl
        | ⟨1, _⟩ => exact (Nat.zero_add _).symm
        | ⟨2, _⟩ => exact (Nat.zero_add _).symm
  · exact extractStridedSlice_apply _ o slices_S2x1024x256_S1x1024x256_1_0_0 (ix3 (0 : Fin 1) r q) (ix3 (1 : Fin 2) r q)
      fun a => by
        match a with
        | ⟨0, _⟩ => rfl
        | ⟨1, _⟩ => exact (Nat.zero_add _).symm
        | ⟨2, _⟩ => exact (Nat.zero_add _).symm

/-- Sum `(c, d)`: the two cores' entries `(c, d)` added. -/
theorem kSums_apply (o : FVec Ideal S2x1024x256 .f32) (c : Fin 1000) (d : Fin 128) :
    kSums (F := Ideal) o (ix2 c d)
      = o (ix3 (0 : Fin 2) (⟨c.val, by omega⟩ : Fin 1024) (⟨d.val, by omega⟩ : Fin 256))
        + o (ix3 (1 : Fin 2) (⟨c.val, by omega⟩ : Fin 1024) (⟨d.val, by omega⟩ : Fin 256)) := by
  unfold kSums
  -- the two slices start at row 0 and column 0: the same coordinates, in the larger ranges
  refine (slice2_axis0_apply 0 _ slices_S1024x128_S1000x128_0_0 c d (⟨c.val, by omega⟩ : Fin 1024)
    (Nat.zero_add _).symm).trans ?_
  refine (slice2_axis1_apply 0 _ slices_S1024x256_S1024x128_0_0 (⟨c.val, by omega⟩ : Fin 1024) d
    (⟨d.val, by omega⟩ : Fin 256) (Nat.zero_add _).symm).trans ?_
  exact added_apply o _ _

/-- Count `c`: the two cores' entries `(c, 128)` added. -/
theorem kCounts_apply (o : FVec Ideal S2x1024x256 .f32) (c : Fin 1000) :
    kCounts (F := Ideal) o (ix1 c)
      = o (ix3 (0 : Fin 2) (⟨c.val, by omega⟩ : Fin 1024) (⟨128, by omega⟩ : Fin 256))
        + o (ix3 (1 : Fin 2) (⟨c.val, by omega⟩ : Fin 1024) (⟨128, by omega⟩ : Fin 256)) := by
  unfold kCounts
  -- the slice of the first 1000 classes starts at 0
  refine (extractStridedSlice_apply _ _ slices_S1024_S1000_0 (ix1 c) (ix1 (⟨c.val, by omega⟩ : Fin 1024)) fun a => by
    match a with
    | ⟨0, _⟩ => exact (Nat.zero_add _).symm).trans ?_
  -- the cast drops the column axis of extent one: row-major position `r` on both sides
  refine (shapeCast_apply _ shapeCasts_S1024x1_S1024 (ix1 (⟨c.val, by omega⟩ : Fin 1024))
    (ix2 (⟨c.val, by omega⟩ : Fin 1024) (0 : Fin 1)) (by
      rw [Shape.rowMajor_val_two, Shape.rowMajor_val_one]
      show c.val * 1 + 0 = c.val
      omega)).trans ?_
  -- the one-column slice starts at column 128
  refine (slice2_axis1_apply 128 _ slices_S1024x256_S1024x1_0_128 (⟨c.val, by omega⟩ : Fin 1024) (0 : Fin 1)
    (⟨128, by omega⟩ : Fin 256) rfl).trans ?_
  exact added_apply o _ _

end Cert.KernelIdeal.Acc

end
-- ==== Proof.Bridge.lean ====
/-
  The two programs compute the same centers.

  Entry by entry the kernel's per-class sums are the two cores' accumulators added, which is the sum over all points
  whose label WORD is the class number; the reference's are the sum over all points whose label, READ SIGNED, is the
  class number. For a class number below 1000 these are the same points, so the sums agree, and so do the counts. Both
  programs then apply the same centers update to them, to the same centers and counter.
-/
import proofs.«416729_j1881195675951_3_alg».proof.Proof.Total
import proofs.«416729_j1881195675951_3_alg».proof.Proof.TailRead
import proofs.«416729_j1881195675951_3_alg».proof.Proof.RefSide
import proofs.«416729_j1881195675951_3_alg».proof.Proof.RefUpdate

noncomputable section

open scoped BigOperators
open Idealize.ShloMosaic Idealize.ShloMosaic.TcCoe Idealize.SL.Sem Idealize.ShloMosaic.ValueIdx

namespace Cert.Proof.Bridge

open Cert.KernelIdeal.Acc Cert.ReferenceIdeal.Side Cert.SegmentSum

variable (m : (ℓ : Loc Cert.KernelIdeal.nD Cert.KernelIdeal.τ Cert.KernelIdeal.sig) → Buf (Elt Ideal) ℓ)

/-- The reference's sums of the kernel's own arguments are the kernel's sums. -/
theorem sums_eq (c : Dev Cert.KernelIdeal.nD) :
    refSums (F := Ideal) (xarr m c) (yarr m c) = kSums (F := Ideal) (outs m c) := by
  funext j
  obtain ⟨k, d, rfl⟩ : ∃ (k : Fin 1000) (d : Fin 128), j = ix2 k d := ⟨j 0, j 1, eq_ix2 j⟩
  rw [refSums_apply, kSums_apply, blocks_added]
  refine Finset.sum_congr rfl fun n _ => ?_
  rw [dif_pos (show d.val < 128 from d.isLt)]
  exact if_congr (word_eq_iff k.val k.isLt _).symm rfl rfl

/-- The reference's counts of the kernel's own labels are the kernel's counts. -/
theorem counts_eq (c : Dev Cert.KernelIdeal.nD) :
    refCounts (F := Ideal) (yarr m c) = kCounts (F := Ideal) (outs m c) := by
  funext j
  obtain ⟨k, rfl⟩ : ∃ k : Fin 1000, j = ix1 k := ⟨j 0, eq_ix1 j⟩
  rw [refCounts_apply, kCounts_apply, blocks_added]
  refine Finset.sum_congr rfl fun n _ => ?_
  rw [dif_neg (show ¬(128 : ℕ) < 128 from lt_irrefl _)]
  exact if_congr (word_eq_iff k.val k.isLt _).symm rfl rfl

/-- From memories that agree on the four arguments, the reference's result is the kernel's. -/
theorem result_eq (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0)
      = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1)
      = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2)
      = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3)
      = m ((c.tc : Thread Cert.KernelIdeal.nD Cert.KernelIdeal.τ).loc Cert.KernelIdeal.main_arg3)) :
    Cert.ReferenceIdeal.Side.result (F := Ideal) m' c = Cert.KernelIdeal.Acc.result (F := Ideal) m c := by
  unfold Cert.ReferenceIdeal.Side.result Cert.KernelIdeal.Acc.result
  rw [h0, h1, h2, h3]
  have hs := sums_eq m c
  have hc := counts_eq m c
  dsimp only [xarr, yarr, outs] at hs hc
  rw [hs, hc]

end Cert.Proof.Bridge

end
-- ==== Proof.lean ====
/-
  Per-class means of 500000 points and the running-centers update: the tiled kernel against the scatter-add reference.

  Both programs compute, for each of 1000 classes, the sum of the rows of `x` labelled with the class and the number
  of such rows, and then update the class's center by a cumulative moving average where the class is present.

  The kernel forms the sums and counts as a product of a one-hot table of the labels (classes 0 … 1023 against the
  labels of a tile of 5000 points) with the tile's rows extended by 128 columns of ones, accumulated over 50 tiles on
  each of two cores and then added; the reference scatter-adds the rows, and ones, by label. Over the extended reals
  a change of float format is the identity and both are exact sums, so each is the sum over the points carrying the
  class's label. A label outside 0 … 999 is dropped by both: the reference's scatter drops an update that lands outside
  its operand (labels read signed, not clamped), the kernel matches no class below 1000 and discards rows 1000 … 1023.
  No finiteness is needed: only commutativity and associativity of the sum, and 0 · v = 0, 1 · v = v.

  The three frames are the generated ones (the reference's from its run, re-posted); the idealization rewrote nothing.
-/
import proofs.«416729_j1881195675951_3_alg».proof.Defs
import proofs.«416729_j1881195675951_3_alg».proof.Proof.Gen.Kernel
import proofs.«416729_j1881195675951_3_alg».proof.Proof.Gen.Kernel.Skeleton
import proofs.«416729_j1881195675951_3_alg».proof.Proof.Gen.Kernel.Launch
import proofs.«416729_j1881195675951_3_alg».proof.Proof.Gen.Kernel.Points
import proofs.«416729_j1881195675951_3_alg».proof.Proof.Gen.Kernel.Frame
import proofs.«416729_j1881195675951_3_alg».proof.Proof.Gen.KernelIdeal
import proofs.«416729_j1881195675951_3_alg».proof.Proof.Gen.KernelIdeal.Skeleton
import proofs.«416729_j1881195675951_3_alg».proof.Proof.Gen.KernelIdeal.Launch
import proofs.«416729_j1881195675951_3_alg».proof.Proof.Gen.KernelIdeal.Points
import proofs.«416729_j1881195675951_3_alg».proof.Proof.Gen.KernelIdeal.Frame
import proofs.«416729_j1881195675951_3_alg».proof.Proof.Gen.ReferenceIdeal
import proofs.«416729_j1881195675951_3_alg».proof.Proof.Gen.Pre_finite_inputs
import proofs.«416729_j1881195675951_3_alg».proof.Proof.RefRun
import proofs.«416729_j1881195675951_3_alg».proof.Proof.KTail
import proofs.«416729_j1881195675951_3_alg».proof.Proof.RefUpdate
import proofs.«416729_j1881195675951_3_alg».proof.Proof.Bridge
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- The idealized kernel runs and keeps its arguments: the generated frame. -/
theorem frame_ki : Cert.frame_KernelIdeal := fun m ρ _ => Cert.KernelIdeal.Gen.frame m ρ

/-- The idealized reference runs and keeps its arguments: its run, the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- From memories agreeing on the arguments both idealized programs end at the kernel's result. -/
theorem algebraic : Cert.algebraic_KernelIdeal_ReferenceIdeal := by
  intro m ρ m' ρ' _ hagree
  refine ⟨fun c => Cert.KernelIdeal.Acc.result (F := Ideal) m c, Cert.KernelIdeal.Acc.run_value (F := Ideal) m ρ, ?_⟩
  refine (θ_run Cert.ReferenceIdeal.defs _ _).mono (fun _ h c => ⟨(h c).1.trans ?_, (h c).2⟩)
    (Cert.ReferenceIdeal.Side.run_update (F := Ideal) m' ρ')
  exact Cert.Proof.Bridge.result_eq m m' c (hagree c).1 (hagree c).2.1 (hagree c).2.2.1 (hagree c).2.2.2

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
